-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x640000 : Shape := ⟨2, ![2, 640000]⟩
abbrev S128x64 : Shape := ⟨2, ![128, 64]⟩
abbrev S128 : Shape := ⟨1, ![128]⟩
abbrev S121x128 : Shape := ⟨2, ![121, 128]⟩
abbrev S121 : Shape := ⟨1, ![121]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S121x128 : S_.BroadcastsInDim S121x128 (![] : Fin 0 → Fin S121x128.rank)
  reducesTo_S121x128_S_d0_1 : S121x128.ReducesTo [0, 1] S_
  bcast_S_S121 : S_.BroadcastsInDim S121 (![] : Fin 0 → Fin S121.rank)
  reducesTo_S121_S_d0 : S121.ReducesTo [0] S_

variable [Facts]

def fn_part1 {F : FTy → Type} [FloatOps F] (main_arg5 : FVec F S121x128 .f32) (main_arg6 : FVec F S121x128 .f32) (main_arg7 : FVec F S121 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S121x128 .f32 := Host.absf main_arg5
  let main_cst_6 : FVec F S_ .f32 := constant S_ .f32 0x7F800000#32
  let main_v20 : FVec F S121x128 .f32 := broadcastInDim S121x128 ![] bcast_S_S121x128 main_cst_6
  let main_v21 : IVec S121x128 1 := cmpf .olt main_v19 main_v20
  let main_c_7 : IVec S_ 1 := constantI S_ 1 1#1
  let main_v22 : IVec S_ 1 := (fun x v => Host.reduce IntOp.andi x v reducesTo_S121x128_S_d0_1 h_S_) main_v21 main_c_7
  let main_v23 : IVec S_ 1 := andi main_v18 main_v22
  let main_v24 : FVec F S121x128 .f32 := Host.absf main_arg6
  let main_cst_8 : FVec F S_ .f32 := constant S_ .f32 0x7F800000#32
  let main_v25 : FVec F S121x128 .f32 := broadcastInDim S121x128 ![] bcast_S_S121x128 main_cst_8
  let main_v26 : IVec S121x128 1 := cmpf .olt main_v24 main_v25
  let main_c_9 : IVec S_ 1 := constantI S_ 1 1#1
  let main_v27 : IVec S_ 1 := (fun x v => Host.reduce IntOp.andi x v reducesTo_S121x128_S_d0_1 h_S_) main_v26 main_c_9
  let main_v28 : IVec S_ 1 := andi main_v23 main_v27
  let main_v29 : FVec F S121 .f32 := Host.absf main_arg7
  let main_cst_10 : FVec F S_ .f32 := constant S_ .f32 0x7F800000#32
  let main_v30 : FVec F S121 .f32 := broadcastInDim S121 ![] bcast_S_S121 main_cst_10
  let main_v31 : IVec S121 1 := cmpf .olt main_v29 main_v30
  let main_c_11 : IVec S_ 1 := constantI S_ 1 1#1
  let main_v32 : IVec S_ 1 := (fun x v => Host.reduce IntOp.andi x v reducesTo_S121_S_d0 h_S_) main_v31 main_c_11
  let main_v33 : IVec S_ 1 := andi main_v28 main_v32
  main_v33

def fn {F : FTy → Type} [FloatOps F] (main_arg0 : FVec F S100000x64 .f32) (main_arg1 : IVec S2x640000 32) (main_arg2 : FVec F S128x64 .f32) (main_arg3 : FVec F S128x64 .f32) (main_arg4 : FVec F S128 .f32) (main_arg5 : FVec F S121x128 .f32) (main_arg6 : FVec F S121x128 .f32) (main_arg7 : FVec F S121 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x64 : Shape := ⟨2, ![100000, 64]⟩
abbrev S2x640000 : Shape := ⟨2, ![2, 640000]⟩
abbrev S128x64 : Shape := ⟨2, ![128, 64]⟩
abbrev S128 : Shape := ⟨1, ![128]⟩
abbrev S121x128 : Shape := ⟨2, ![121, 128]⟩
abbrev S121 : Shape := ⟨1, ![121]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x64 : Shape := ⟨2, ![640000, 64]⟩
abbrev S100000 : Shape := ⟨1, ![100000]⟩
abbrev S100000x1 : Shape := ⟨2, ![100000, 1]⟩
abbrev S100000x128 : Shape := ⟨2, ![100000, 128]⟩
abbrev S5000x64 : Shape := ⟨2, ![5000, 64]⟩
abbrev S5000x128 : Shape := ⟨2, ![5000, 128]⟩
abbrev S64x128 : Shape := ⟨2, ![64, 128]⟩
abbrev S1x128 : Shape := ⟨2, ![1, 128]⟩
abbrev S640000x128 : Shape := ⟨2, ![640000, 128]⟩
abbrev S100000x121 : Shape := ⟨2, ![100000, 121]⟩
abbrev S5000x121 : Shape := ⟨2, ![5000, 121]⟩
abbrev S128x121 : Shape := ⟨2, ![128, 121]⟩
abbrev S1x121 : Shape := ⟨2, ![1, 121]⟩

abbrev nBuf : Space → Nat
  | .hbm => 64
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x640000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S121x128, .f32⟩
  | .hbm, ⟨6, _⟩ => ⟨S121x128, .f32⟩
  | .hbm, ⟨7, _⟩ => ⟨S121, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x64, .f32⟩
  | .hbm, ⟨21, _⟩ => ⟨S_, .f32⟩
  | .hbm, ⟨22, _⟩ => ⟨S100000x64, .f32⟩
  | .hbm, ⟨23, _⟩ => ⟨S640000x1, .i32⟩
  | .hbm, ⟨24, _⟩ => ⟨S100000x64, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000x128, .f32⟩
  | .hbm, ⟨47, _⟩ => ⟨S_, .f32⟩
  | .hbm, ⟨48, _⟩ => ⟨S100000x128, .f32⟩
  | .hbm, ⟨49, _⟩ => ⟨S640000x1, .i32⟩
  | .hbm, ⟨50, _⟩ => ⟨S100000x128, .f32⟩
  | .hbm, ⟨51, _⟩ => ⟨S_, .f32⟩
  | .hbm, ⟨52, _⟩ => ⟨S640000, .f32⟩
  | .hbm, ⟨53, _⟩ => ⟨S_, .f32⟩
  | .hbm, ⟨54, _⟩ => ⟨S100000, .f32⟩
  | .hbm, ⟨55, _⟩ => ⟨S640000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x121, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S128x64, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S121x128, .f32⟩
  | .local _ .vmem, ⟨14, _⟩ => ⟨S121x128, .f32⟩
  | .local _ .vmem, ⟨15, _⟩ => ⟨S121, .f32⟩
  | .local _ .vmem, ⟨16, _⟩ => ⟨S5000x121, .f32⟩
  | .local _ .vmem, ⟨17, _⟩ => ⟨S5000x121, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S121x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S121x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S121 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x121 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S121x128_S121x128_0_0 : ∀ a, (![0, 0] : Fin 2 → Nat) a + S121x128.size a ≤ S121x128.size a
  h_S121x128 : 0 < S121x128.numel
  transposes_S121x128_p1_0_S128x121 : S121x128.Transposes [1, 0] S128x121
  inb_S121_S121_0 : ∀ a, (![0] : Fin 1 → Nat) a + S121.size a ≤ S121.size a
  h_S121 : 0 < S121.numel
  shapeCasts_S121_S1x121 : S121.ShapeCasts S1x121
  broadcasts_S1x121_S5000x121 : S1x121.Broadcasts S5000x121
  inb_S5000x121_S5000x121_0_0 : ∀ a, (![0, 0] : Fin 2 → Nat) a + S5000x121.size a ≤ S5000x121.size a
  h_S5000x121 : 0 < S5000x121.numel
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  scatter_S100000_S640000x1_S640000_n_0_0_1_wf : ScatterDims.WF S100000 S640000x1 S640000 [] [0] [0] 1
  dot_S5000x64_S64x128_S5000x128_1_0_0_1_n_n_wf : DotDims.WF S5000x64 S64x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x121_S5000x121_1_0_0_1_n_n_wf : DotDims.WF S5000x128 S128x121 S5000x121 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S121x128.size a ≤ S121x128.size a
  hwx1_2 : ∀ i : grid1.Coords, EltTy.bits .f32 = 32 ∨ (Rect.block (s := S121x128) S121x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S121x128.size a ≤ S121x128.size a
  hwx1_3 : ∀ i : grid1.Coords, EltTy.bits .f32 = 32 ∨ (Rect.block (s := S121x128) S121x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S121.size a ≤ S121.size a
  hwx1_4 : ∀ i : grid1.Coords, EltTy.bits .f32 = 32 ∨ (Rect.block (s := S121) S121.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x121.size a ≤ S100000x121.size a
  hwx1_5 : ∀ i : grid1.Coords, EltTy.bits .f32 = 32 ∨ (Rect.block (s := S100000x121) S5000x121.size (cc1_transform_5 i) (hinb1_5 i)).WholeWords (EltTy.packing .f32)

variable [Facts₀]

def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x121_S5000x121_1_0_0_1_n_n : DotDims S5000x128 S128x121 S5000x121 where
  lhsContracting := [1]
  rhsContracting := [0]
  lhsNonContracting := [0]
  rhsNonContracting := [1]
  lhsBatch := []
  rhsBatch := []
  wf := dot_S5000x128_S128x121_S5000x121_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S121x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S121x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S121.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x121.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x640000 : Shape := ⟨2, ![2, 640000]⟩
abbrev S128x64 : Shape := ⟨2, ![128, 64]⟩
abbrev S128 : Shape := ⟨1, ![128]⟩
abbrev S121x128 : Shape := ⟨2, ![121, 128]⟩
abbrev S121 : Shape := ⟨1, ![121]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x64 : Shape := ⟨2, ![640000, 64]⟩
abbrev S100000 : Shape := ⟨1, ![100000]⟩
abbrev S100000x1 : Shape := ⟨2, ![100000, 1]⟩
abbrev S64x128 : Shape := ⟨2, ![64, 128]⟩
abbrev S100000x128 : Shape := ⟨2, ![100000, 128]⟩
abbrev S1x128 : Shape := ⟨2, ![1, 128]⟩
abbrev S640000x128 : Shape := ⟨2, ![640000, 128]⟩
abbrev S128x121 : Shape := ⟨2, ![128, 121]⟩
abbrev S100000x121 : Shape := ⟨2, ![100000, 121]⟩
abbrev S1x121 : Shape := ⟨2, ![1, 121]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x640000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S121x128, .f32⟩
  | .hbm, ⟨6, _⟩ => ⟨S121x128, .f32⟩
  | .hbm, ⟨7, _⟩ => ⟨S121, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x64, .f32⟩
  | .hbm, ⟨21, _⟩ => ⟨S_, .f32⟩
  | .hbm, ⟨22, _⟩ => ⟨S100000x64, .f32⟩
  | .hbm, ⟨23, _⟩ => ⟨S640000x1, .i32⟩
  | .hbm, ⟨24, _⟩ => ⟨S100000x64, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x128, .f32⟩
  | .hbm, ⟨38, _⟩ => ⟨S100000x128, .f32⟩
  | .hbm, ⟨39, _⟩ => ⟨S64x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S100000x128, .f32⟩
  | .hbm, ⟨59, _⟩ => ⟨S640000x1, .i32⟩
  | .hbm, ⟨60, _⟩ => ⟨S100000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S100000, .f32⟩
  | .hbm, ⟨65, _⟩ => ⟨S640000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x121, .f32⟩
  | .hbm, ⟨74, _⟩ => ⟨S100000x121, .f32⟩
  | .hbm, ⟨75, _⟩ => ⟨S128x121, .f32⟩
  | .hbm, ⟨76, _⟩ => ⟨S100000x121, .f32⟩
  | .hbm, ⟨77, _⟩ => ⟨S100000x121, .f32⟩
  | .hbm, ⟨78, _⟩ => ⟨S1x121, .f32⟩
  | .hbm, ⟨79, _⟩ => ⟨S100000x121, .f32⟩
  | .hbm, ⟨80, _⟩ => ⟨S100000x121, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S121x128_S128x121_1_0 : S121x128.Transposes [1, 0] S128x121
  bcast_S121_S1x121_1 : S121.BroadcastsInDim S1x121 (![1] : Fin 1 → Fin S1x121.rank)
  bcast_S1x121_S100000x121_0_1 : S1x121.BroadcastsInDim S100000x121 (![0, 1] : Fin 2 → Fin S100000x121.rank)
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  scatter_S100000_S640000x1_S640000_n_0_0_1_wf : ScatterDims.WF S100000 S640000x1 S640000 [] [0] [0] 1
  dot_S100000x64_S64x128_S100000x128_1_0_0_1_n_n_wf : DotDims.WF S100000x64 S64x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x121_S100000x121_1_0_0_1_n_n_wf : DotDims.WF S100000x128 S128x121 S100000x121 [1] [0] [0] [1] [] []

variable [Facts₀]

def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x121_S100000x121_1_0_0_1_n_n : DotDims S100000x128 S128x121 S100000x121 where
  lhsContracting := [1]
  rhsContracting := [0]
  lhsNonContracting := [0]
  rhsNonContracting := [1]
  lhsBatch := []
  rhsBatch := []
  wf := dot_S100000x128_S128x121_S100000x121_1_0_0_1_n_n_wf

class Facts : Prop extends Facts₀ where

variable [Facts]
-- ==== Proof.Dense.lean ====
/-
  The dense stage of a GraphSAGE layer as one function of whole arrays, entry by entry, on the extended reals:

      out[r, o] = (Σ_k M[r, k] · Wl[o, k]  +  Σ_k X[r, k] · Wr[o, k])  +  b[o]

  where `M` is the neighbour mean, `X` the node features, `Wl`, `Wr` the two weight matrices (stored output-major,
  so the product contracts their second axis) and `b` the bias; the first layer follows it with `max(·, 0)`.
  Row `r` of the result depends on row `r` of `M` and of `X` only, so a block of consecutive rows of the result is
  the same function of the same block of rows of `M` and `X` (`lin_rows`, `linRelu_rows`): this is what lets a
  row-tiled computation be read as one whole-array function.
-/
import Idealize.ShloMosaic.PureOps.Ideal.Laws
import Idealize.ShloMosaic.Lib.ValueIdx

noncomputable section

open scoped BigOperators

namespace Cert.Sage

open Idealize.ShloMosaic Idealize.ShloMosaic.ValueIdx

/-- The zero word of f32 read at the ideal instance (the threshold of the rectifier). -/
abbrev zero32 : Ideal .f32 := FloatOps.ofBits (F := Ideal) .f32 0x00000000#32

/-- Entry `(r, o)` of the dense stage: the two row-by-row products summed in the order written, then the bias. -/
def lin {N K O : ℕ} (M X : FVec Ideal ⟨2, ![N, K]⟩ .f32) (Wl Wr : FVec Ideal ⟨2, ![O, K]⟩ .f32)
    (b : FVec Ideal ⟨1, ![O]⟩ .f32) : FVec Ideal ⟨2, ![N, O]⟩ .f32 :=
  fun i => ((∑ k : Fin K, M (ix2 (i 0) k) * Wl (ix2 (i 1) k)) + ∑ k : Fin K, X (ix2 (i 0) k) * Wr (ix2 (i 1) k))
    + b (ix1 (i 1))

/-- The dense stage followed by the rectifier `max(·, 0)`. -/
def linRelu {N K O : ℕ} (M X : FVec Ideal ⟨2, ![N, K]⟩ .f32) (Wl Wr : FVec Ideal ⟨2, ![O, K]⟩ .f32)
    (b : FVec Ideal ⟨1, ![O]⟩ .f32) : FVec Ideal ⟨2, ![N, O]⟩ .f32 :=
  fun i => max (lin M X Wl Wr b i) zero32

/-- Row `p` of the stage over a block of rows is row `r` of the stage over the whole arrays, when row `p` of each
    block is row `r` of its array. -/
theorem lin_rows {N B K O : ℕ} (M X : FVec Ideal ⟨2, ![N, K]⟩ .f32) (Mb Xb : FVec Ideal ⟨2, ![B, K]⟩ .f32)
    (Wl Wr : FVec Ideal ⟨2, ![O, K]⟩ .f32) (b : FVec Ideal ⟨1, ![O]⟩ .f32) (p : Fin B) (r : Fin N)
    (hM : ∀ k : Fin K, Mb (ix2 p k) = M (ix2 r k)) (hX : ∀ k : Fin K, Xb (ix2 p k) = X (ix2 r k)) (q : Fin O) :
    lin Mb Xb Wl Wr b (ix2 p q) = lin M X Wl Wr b (ix2 r q) := by
  unfold lin
  show ((∑ k : Fin K, Mb (ix2 p k) * Wl (ix2 q k)) + ∑ k : Fin K, Xb (ix2 p k) * Wr (ix2 q k)) + b (ix1 q)
    = ((∑ k : Fin K, M (ix2 r k) * Wl (ix2 q k)) + ∑ k : Fin K, X (ix2 r k) * Wr (ix2 q k)) + b (ix1 q)
  simp only [hM, hX]

/-- The same with the rectifier. -/
theorem linRelu_rows {N B K O : ℕ} (M X : FVec Ideal ⟨2, ![N, K]⟩ .f32) (Mb Xb : FVec Ideal ⟨2, ![B, K]⟩ .f32)
    (Wl Wr : FVec Ideal ⟨2, ![O, K]⟩ .f32) (b : FVec Ideal ⟨1, ![O]⟩ .f32) (p : Fin B) (r : Fin N)
    (hM : ∀ k : Fin K, Mb (ix2 p k) = M (ix2 r k)) (hX : ∀ k : Fin K, Xb (ix2 p k) = X (ix2 r k)) (q : Fin O) :
    linRelu Mb Xb Wl Wr b (ix2 p q) = linRelu M X Wl Wr b (ix2 r q) := by
  unfold linRelu
  rw [lin_rows M X Mb Xb Wl Wr b p r hM hX q]

/-- The block form with the weights and the bias given as blocks too (each the whole of its array): what a point of a
    row-tiled grid computes from the blocks it is handed is the whole-array stage at the block's rows. -/
theorem lin_block {N B K O : ℕ} (M X : FVec Ideal ⟨2, ![N, K]⟩ .f32) (Mb Xb : FVec Ideal ⟨2, ![B, K]⟩ .f32)
    (Wl Wr Wlb Wrb : FVec Ideal ⟨2, ![O, K]⟩ .f32) (b bb : FVec Ideal ⟨1, ![O]⟩ .f32) (p : Fin B) (r : Fin N)
    (hM : ∀ k : Fin K, Mb (ix2 p k) = M (ix2 r k)) (hX : ∀ k : Fin K, Xb (ix2 p k) = X (ix2 r k))
    (hWl : ∀ y, Wlb y = Wl y) (hWr : ∀ y, Wrb y = Wr y) (hb : ∀ y, bb y = b y) (q : Fin O) :
    lin Mb Xb Wlb Wrb bb (ix2 p q) = lin M X Wl Wr b (ix2 r q) := by
  obtain rfl : Wlb = Wl := funext hWl
  obtain rfl : Wrb = Wr := funext hWr
  obtain rfl : bb = b := funext hb
  exact lin_rows M X Mb Xb Wlb Wrb bb p r hM hX q

/-- The same with the rectifier. -/
theorem linRelu_block {N B K O : ℕ} (M X : FVec Ideal ⟨2, ![N, K]⟩ .f32) (Mb Xb : FVec Ideal ⟨2, ![B, K]⟩ .f32)
    (Wl Wr Wlb Wrb : FVec Ideal ⟨2, ![O, K]⟩ .f32) (b bb : FVec Ideal ⟨1, ![O]⟩ .f32) (p : Fin B) (r : Fin N)
    (hM : ∀ k : Fin K, Mb (ix2 p k) = M (ix2 r k)) (hX : ∀ k : Fin K, Xb (ix2 p k) = X (ix2 r k))
    (hWl : ∀ y, Wlb y = Wl y) (hWr : ∀ y, Wrb y = Wr y) (hb : ∀ y, bb y = b y) (q : Fin O) :
    linRelu Mb Xb Wlb Wrb bb (ix2 p q) = linRelu M X Wl Wr b (ix2 r q) := by
  obtain rfl : Wlb = Wl := funext hWl
  obtain rfl : Wrb = Wr := funext hWr
  obtain rfl : bb = b := funext hb
  exact linRelu_rows M X Mb Xb Wlb Wrb bb p r hM hX q

end Cert.Sage

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.Region0.lean ====
/-
  Region 0 of the kernel program: the first layer's dense stage, row-tiled.

  The grid has 20 points; point `t` is handed rows [5000·t, 5000·t + 5000) of the mean array and of the feature
  array, the two weight matrices and the bias whole, and writes rows [5000·t, 5000·t + 5000) of the hidden array.
  What it writes is, entry by entry,  max((Σ_k M[r,k]·Wl[o,k] + Σ_k X[r,k]·Wr[o,k]) + b[o], 0)  at the block's own
  rows: the matrix unit's product into a zero accumulator is the plain sum on the extended reals, a change of float
  format is the identity there, and the transposed weight read at (k, o) is the weight at (o, k).  The 20 blocks
  tile the hidden array, so after the region the whole array is the rectified dense stage of the region's input
  arrays as the region found them.
-/
import proofs.«159561_j40578851013001_1_alg».proof.Proof.Gen.KernelIdeal.Frame
import proofs.«159561_j40578851013001_1_alg».proof.Proof.Dense
import proofs.«159561_j40578851013001_1_alg».proof.Proof.LibPlainMatmul
import Idealize.ShloMosaic.Lib.Pipeline.Value
import Idealize.ShloMosaic.Lib.ValueLayout

set_option maxRecDepth 16384

noncomputable section

open scoped BigOperators

namespace Cert.Sage.Region0

open Cert.KernelIdeal Cert.KernelIdeal.Gen Idealize.ShloMosaic Idealize.ShloMosaic.TcCoe Idealize.SL.Sem
open Idealize.ShloMosaic.ValueIdx Cert.Sage
open Idealize.ShloMosaic.Pipeline (Dat)

/-! ## The body's arithmetic at an entry -/

/-- The printed dimension numbers are the plain ones: rows × contraction times contraction × columns. -/
theorem dims_eq : dot_S5000x64_S64x128_S5000x128_1_0_0_1_n_n = DotDims.plain 5000 64 128 := rfl

/-- One of the body's two products at entry `(p, q)`: the block's row `p` against the weight's row `q`. -/
theorem product_apply (x : FVec Ideal S5000x64 .f32) (w : FVec Ideal S128x64 .f32) (p : Fin 5000) (q : Fin 128) :
    matmul dot_S5000x64_S64x128_S5000x128_1_0_0_1_n_n none (truncf .bf16 x bitsLt_bf16_f32)
      (transpose S64x128 [1, 0] (truncf .bf16 w bitsLt_bf16_f32) transposes_S128x64_p1_0_S64x128)
      (constant S5000x128 .f32 0x00000000#32) (ix2 p q) = ∑ k : Fin 64, x (ix2 p k) * w (ix2 q k) := by
  rw [dims_eq]
  refine (Cert.Gnn.plain_matmul_apply 5000 64 128 none _ _ (ix2 p q)).trans ?_
  refine Finset.sum_congr rfl fun k _ => ?_
  show x (ix2 p k) * transpose S64x128 [1, 0] (truncf .bf16 w bitsLt_bf16_f32) transposes_S128x64_p1_0_S64x128 (ix2 k q) = _
  rw [transpose_ix2_apply]
  rfl

/-- The stored value at entry `(p, q)` is the rectified dense stage of the loaded blocks there. -/
theorem payload_apply (x0 x1 : Vec Ideal S5000x64 .f32) (x2 x3 : Vec Ideal S128x64 .f32) (x4 : Vec Ideal S128 .f32)
    (p : Fin 5000) (q : Fin 128) :
    k0_pay1 (F := Ideal) x0 x1 x2 x3 x4 (ix2 p q) = linRelu x0 x1 x2 x3 x4 (ix2 p q) := by
  unfold k0_pay1
  rw [shapeCast_self, maximumf_apply, addf_apply, addf_apply, product_apply, product_apply, broadcastTo_1b_ab_apply,
    shapeCast_a_1a_apply, broadcast_apply]
  rfl

/-! ## The windows' blocks, read off the arrays the region finds -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The printed index maps over the 20 grid points: the two row-tiled inputs and the output sit at block row `t`,
    the weights and the bias at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the mean's block at point `t` is row `5000·t + p` of the mean array. -/
theorem mean_block (c : Dev nD) (t : Fin cfg0.N) (p : Fin 5000) (r : Fin 100000) (hr : r.val = t.val * 5000 + p.val)
    (k : Fin 64) : iblk0 V c 0 t (ix2 p k) = V c main_v22 (ix2 r k) := by
  show V c main_v22 (((cfg0.win 0).blk t).view.emb (ix2 p k)) = V c main_v22 (ix2 r k)
  refine congrArg (V c main_v22) ?_
  obtain ⟨e00, e01, -⟩ := index_facts t
  funext a; apply Fin.ext
  match a with
  | ⟨0, _⟩ => show win0_0.index t (0 : Fin 2) * 5000 + 1 * p.val = r.val; omega
  | ⟨1, _⟩ => show win0_0.index t (1 : Fin 2) * 64 + 1 * k.val = k.val; omega

/-- Row `p` of the features' block at point `t` is row `5000·t + p` of the feature array. -/
theorem feature_block (c : Dev nD) (t : Fin cfg0.N) (p : Fin 5000) (r : Fin 100000) (hr : r.val = t.val * 5000 + p.val)
    (k : Fin 64) : iblk0 V c 1 t (ix2 p k) = V c main_arg0 (ix2 r k) := by
  show V c main_arg0 (((cfg0.win 1).blk t).view.emb (ix2 p k)) = V c main_arg0 (ix2 r k)
  refine congrArg (V c main_arg0) ?_
  obtain ⟨-, -, e10, e11, -⟩ := index_facts t
  funext a; apply Fin.ext
  match a with
  | ⟨0, _⟩ => show win0_1.index t (0 : Fin 2) * 5000 + 1 * p.val = r.val; omega
  | ⟨1, _⟩ => show win0_1.index t (1 : Fin 2) * 64 + 1 * k.val = k.val; omega

/-- The left weight's block is the whole matrix, at every point. -/
theorem left_block (c : Dev nD) (t : Fin cfg0.N) (y : S128x64.Idx) : iblk0 V c 2 t y = V c main_arg2 y := by
  show V c main_arg2 (((cfg0.win 2).blk t).view.emb y) = V c main_arg2 y
  refine congrArg (V c main_arg2) ?_
  obtain ⟨-, -, -, -, e20, e21, -⟩ := index_facts t
  funext a; apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The right weight's block is the whole matrix, at every point. -/
theorem right_block (c : Dev nD) (t : Fin cfg0.N) (y : S128x64.Idx) : iblk0 V c 3 t y = V c main_arg3 y := by
  show V c main_arg3 (((cfg0.win 3).blk t).view.emb y) = V c main_arg3 y
  refine congrArg (V c main_arg3) ?_
  obtain ⟨-, -, -, -, -, -, e30, e31, -⟩ := index_facts t
  funext a; apply Fin.ext
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- The bias' block is the whole vector, at every point. -/
theorem bias_block (c : Dev nD) (t : Fin cfg0.N) (y : S128.Idx) : iblk0 V c 4 t y = V c main_arg4 y := by
  show V c main_arg4 (((cfg0.win 4).blk t).view.emb y) = V c main_arg4 y
  refine congrArg (V c main_arg4) ?_
  obtain ⟨-, -, -, -, -, -, -, -, e40, -⟩ := index_facts t
  funext a; apply Fin.ext
  match a with
  | ⟨0, _⟩ => show win0_4.index t (0 : Fin 1) * 128 + 1 * (y 0).val = (y 0).val; omega

/-! ## What a point writes back, and the array after the region -/

/-- The hidden array as the region leaves it: the rectified dense stage of the arrays the region finds. -/
abbrev hidden (c : Dev nD) : FVec Ideal S100000x128 .f32 :=
  linRelu (V c main_v22) (V c main_arg0) (V c main_arg2) (V c main_arg3) (V c main_arg4)

/-- Point `t` writes back rows [5000·t, 5000·t + 5000) of `hidden`. -/
theorem flushed_eq (c : Dev nD) (t : Fin cfg0.N) :
    (dat0 (F := Ideal) V c).flushed 5 t = ((cfg0.win 5).blk t).view.read (Elt Ideal) (hidden V c) := by
  show (cfg0.win 5).cut (grid0.coords t) ((dat0 V c).after 5 t) = _
  rw [after0_5]
  unfold out0_5
  rw [View.canon_unit_zero zeros2]
  simp only [View.ld_unit_zero (S := S5000x64) zeros2, View.ld_unit_zero (S := S128x64) zeros2,
    View.ld_unit_zero (S := S128) zeros1]
  obtain ⟨-, -, -, -, -, -, -, -, -, e50, e51⟩ := index_facts t
  have ht : t.val < 20 := t.isLt
  funext j
  obtain ⟨p, q, rfl⟩ : ∃ (p : Fin 5000) (q : Fin 128), j = ix2 p q := ⟨j 0, j 1, eq_ix2 j⟩
  have hp : p.val < 5000 := p.isLt
  have hemb : ((cfg0.win 5).blk t).view.emb (ix2 p q) = ix2 (⟨t.val * 5000 + p.val, by omega⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q)
    = hidden V c (((cfg0.win 5).blk t).view.emb (ix2 p q))
  rw [hemb]
  refine (payload_apply (iblk0 V c 0 t) (iblk0 V c 1 t) (iblk0 V c 2 t) (iblk0 V c 3 t) (iblk0 V c 4 t) p q).trans ?_
  exact linRelu_block (V c main_v22) (V c main_arg0) (iblk0 V c 0 t) (iblk0 V c 1 t) (V c main_arg2) (V c main_arg3)
    (iblk0 V c 2 t) (iblk0 V c 3 t) (V c main_arg4) (iblk0 V c 4 t) p ⟨t.val * 5000 + p.val, by omega⟩
    (mean_block V c t p _ rfl) (feature_block V c t p _ rfl) (left_block V c t) (right_block V c t) (bias_block V c t) q

/-- An index of the hidden array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v23).slice (win0_5.rect t)).set ↔ _
  rw [View.set_slice_whole, Rect.mem_set_unit]
  exact Iff.rfl

/-- Every entry of the hidden array is in the block of the point its row falls in. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  refine ⟨⟨(i 0).val / 5000, by show (i 0).val / 5000 < 20; omega⟩, flush0_5 _, ?_⟩
  rw [mem_block]
  obtain ⟨-, -, -, -, -, -, -, -, -, e50, e51⟩ := index_facts ⟨(i 0).val / 5000, by show (i 0).val / 5000 < 20; omega⟩
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e51]; omega

/-- After region 0 the hidden array is the rectified dense stage of the arrays the region found. -/
theorem array_eq (c : Dev nD) : (dat0 (F := Ideal) V c).arrAt 5 cfg0.N = hidden V c :=
  (dat0 (F := Ideal) V c).arrAt_eq_of_cover 5 (hidden V c) (fun t _ => flushed_eq V c t) covered

end Cert.Sage.Region0

end
-- ==== Proof.Region1.lean ====
/-
  Region 1 of the kernel program: the second layer's dense stage, row-tiled, with no rectifier.

  The grid has 20 points; point `t` is handed rows [5000·t, 5000·t + 5000) of the second mean array and of the hidden
  array, the two weight matrices (121 × 128) and the bias (121) whole, and writes rows [5000·t, 5000·t + 5000) of the
  output array: entry by entry  (Σ_k M[r,k]·Wl[o,k] + Σ_k H[r,k]·Wr[o,k]) + b[o]  at the block's own rows, the sums
  over the 128 hidden features.  The 20 blocks tile the output array, so after the region the whole array is the
  dense stage of the region's input arrays as the region found them.
-/
import proofs.«159561_j40578851013001_1_alg».proof.Proof.Gen.KernelIdeal.Frame
import proofs.«159561_j40578851013001_1_alg».proof.Proof.Dense
import proofs.«159561_j40578851013001_1_alg».proof.Proof.LibPlainMatmul
import Idealize.ShloMosaic.Lib.Pipeline.Value
import Idealize.ShloMosaic.Lib.ValueLayout

set_option maxRecDepth 16384

noncomputable section

open scoped BigOperators

namespace Cert.Sage.Region1

open Cert.KernelIdeal Cert.KernelIdeal.Gen Idealize.ShloMosaic Idealize.ShloMosaic.TcCoe Idealize.SL.Sem
open Idealize.ShloMosaic.ValueIdx Cert.Sage
open Idealize.ShloMosaic.Pipeline (Dat)

/-! ## The body's arithmetic at an entry -/

/-- The printed dimension numbers are the plain ones: rows × contraction times contraction × columns. -/
theorem dims_eq : dot_S5000x128_S128x121_S5000x121_1_0_0_1_n_n = DotDims.plain 5000 128 121 := rfl

/-- One of the body's two products at entry `(p, q)`: the block's row `p` against the weight's row `q`. -/
theorem product_apply (x : FVec Ideal S5000x128 .f32) (w : FVec Ideal S121x128 .f32) (p : Fin 5000) (q : Fin 121) :
    matmul dot_S5000x128_S128x121_S5000x121_1_0_0_1_n_n none (truncf .bf16 x bitsLt_bf16_f32)
      (transpose S128x121 [1, 0] (truncf .bf16 w bitsLt_bf16_f32) transposes_S121x128_p1_0_S128x121)
      (constant S5000x121 .f32 0x00000000#32) (ix2 p q) = ∑ k : Fin 128, x (ix2 p k) * w (ix2 q k) := by
  rw [dims_eq]
  refine (Cert.Gnn.plain_matmul_apply 5000 128 121 none _ _ (ix2 p q)).trans ?_
  refine Finset.sum_congr rfl fun k _ => ?_
  show x (ix2 p k) * transpose S128x121 [1, 0] (truncf .bf16 w bitsLt_bf16_f32) transposes_S121x128_p1_0_S128x121 (ix2 k q) = _
  rw [transpose_ix2_apply]
  rfl

/-- The stored value at entry `(p, q)` is the dense stage of the loaded blocks there. -/
theorem payload_apply (x0 x1 : Vec Ideal S5000x128 .f32) (x2 x3 : Vec Ideal S121x128 .f32) (x4 : Vec Ideal S121 .f32)
    (p : Fin 5000) (q : Fin 121) :
    k1_pay1 (F := Ideal) x0 x1 x2 x3 x4 (ix2 p q) = lin x0 x1 x2 x3 x4 (ix2 p q) := by
  unfold k1_pay1
  rw [shapeCast_self, shapeCast_self, addf_apply, addf_apply, product_apply, product_apply, broadcastTo_1b_ab_apply,
    shapeCast_a_1a_apply]
  rfl

/-! ## The windows' blocks, read off the arrays the region finds -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The printed index maps over the 20 grid points: the two row-tiled inputs and the output sit at block row `t`,
    the weights and the bias at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of the mean's block at point `t` is row `5000·t + p` of the second mean array. -/
theorem mean_block (c : Dev nD) (t : Fin cfg1.N) (p : Fin 5000) (r : Fin 100000) (hr : r.val = t.val * 5000 + p.val)
    (k : Fin 128) : iblk1 V c 0 t (ix2 p k) = V c main_v42 (ix2 r k) := by
  show V c main_v42 (((cfg1.win 0).blk t).view.emb (ix2 p k)) = V c main_v42 (ix2 r k)
  refine congrArg (V c main_v42) ?_
  obtain ⟨e00, e01, -⟩ := index_facts t
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Row `p` of the hidden block at point `t` is row `5000·t + p` of the hidden array. -/
theorem hidden_block (c : Dev nD) (t : Fin cfg1.N) (p : Fin 5000) (r : Fin 100000) (hr : r.val = t.val * 5000 + p.val)
    (k : Fin 128) : iblk1 V c 1 t (ix2 p k) = V c main_v23 (ix2 r k) := by
  show V c main_v23 (((cfg1.win 1).blk t).view.emb (ix2 p k)) = V c main_v23 (ix2 r k)
  refine congrArg (V c main_v23) ?_
  obtain ⟨-, -, e10, e11, -⟩ := index_facts t
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- The left weight's block is the whole matrix, at every point. -/
theorem left_block (c : Dev nD) (t : Fin cfg1.N) (y : S121x128.Idx) : iblk1 V c 2 t y = V c main_arg5 y := by
  show V c main_arg5 (((cfg1.win 2).blk t).view.emb y) = V c main_arg5 y
  refine congrArg (V c main_arg5) ?_
  obtain ⟨-, -, -, -, e20, e21, -⟩ := index_facts t
  funext a; apply Fin.ext
  match a with
  | ⟨0, _⟩ => show win1_2.index t (0 : Fin 2) * 121 + 1 * (y 0).val = (y 0).val; omega
  | ⟨1, _⟩ => show win1_2.index t (1 : Fin 2) * 128 + 1 * (y 1).val = (y 1).val; omega

/-- The right weight's block is the whole matrix, at every point. -/
theorem right_block (c : Dev nD) (t : Fin cfg1.N) (y : S121x128.Idx) : iblk1 V c 3 t y = V c main_arg6 y := by
  show V c main_arg6 (((cfg1.win 3).blk t).view.emb y) = V c main_arg6 y
  refine congrArg (V c main_arg6) ?_
  obtain ⟨-, -, -, -, -, -, e30, e31, -⟩ := index_facts t
  funext a; apply Fin.ext
  match a with
  | ⟨0, _⟩ => show win1_3.index t (0 : Fin 2) * 121 + 1 * (y 0).val = (y 0).val; omega
  | ⟨1, _⟩ => show win1_3.index t (1 : Fin 2) * 128 + 1 * (y 1).val = (y 1).val; omega

/-- The bias' block is the whole vector, at every point. -/
theorem bias_block (c : Dev nD) (t : Fin cfg1.N) (y : S121.Idx) : iblk1 V c 4 t y = V c main_arg7 y := by
  show V c main_arg7 (((cfg1.win 4).blk t).view.emb y) = V c main_arg7 y
  refine congrArg (V c main_arg7) ?_
  obtain ⟨-, -, -, -, -, -, -, -, e40, -⟩ := index_facts t
  funext a; apply Fin.ext
  match a with
  | ⟨0, _⟩ => show win1_4.index t (0 : Fin 1) * 121 + 1 * (y 0).val = (y 0).val; omega

/-! ## What a point writes back, and the array after the region -/

/-- The output array as the region leaves it: the dense stage of the arrays the region finds. -/
abbrev output (c : Dev nD) : FVec Ideal S100000x121 .f32 :=
  lin (V c main_v42) (V c main_v23) (V c main_arg5) (V c main_arg6) (V c main_arg7)

/-- Point `t` writes back rows [5000·t, 5000·t + 5000) of `output`. -/
theorem flushed_eq (c : Dev nD) (t : Fin cfg1.N) :
    (dat1 (F := Ideal) V c).flushed 5 t = ((cfg1.win 5).blk t).view.read (Elt Ideal) (output V c) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S121x128) zeros2,
    View.ld_unit_zero (S := S121) zeros1]
  obtain ⟨-, -, -, -, -, -, -, -, -, e50, e51⟩ := index_facts t
  have ht : t.val < 20 := t.isLt
  funext j
  obtain ⟨p, q, rfl⟩ : ∃ (p : Fin 5000) (q : Fin 121), j = ix2 p q := ⟨j 0, j 1, eq_ix2 j⟩
  have hp : p.val < 5000 := p.isLt
  have hemb : ((cfg1.win 5).blk t).view.emb (ix2 p q) = ix2 (⟨t.val * 5000 + p.val, by omega⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 121 + 1 * q.val = q.val; omega
  show k1_pay1 (iblk1 V c 0 t) (iblk1 V c 1 t) (iblk1 V c 2 t) (iblk1 V c 3 t) (iblk1 V c 4 t) (ix2 p q)
    = output V c (((cfg1.win 5).blk t).view.emb (ix2 p q))
  rw [hemb]
  refine (payload_apply (iblk1 V c 0 t) (iblk1 V c 1 t) (iblk1 V c 2 t) (iblk1 V c 3 t) (iblk1 V c 4 t) p q).trans ?_
  exact lin_block (V c main_v42) (V c main_v23) (iblk1 V c 0 t) (iblk1 V c 1 t) (V c main_arg5) (V c main_arg6)
    (iblk1 V c 2 t) (iblk1 V c 3 t) (V c main_arg7) (iblk1 V c 4 t) p ⟨t.val * 5000 + p.val, by omega⟩
    (mean_block V c t p _ rfl) (hidden_block V c t p _ rfl) (left_block V c t) (right_block V c t) (bias_block V c t) q

/-- An index of the output array is in point `t`'s block iff each coordinate is in the block's range on its axis. -/
theorem mem_block (t : Fin cfg1.N) (i : S100000x121.Idx) :
    i ∈ ((cfg1.win 5).blk t).view.set ↔ ∀ a : Fin 2, win1_5.index t a * S5000x121.size a ≤ (i a).val
      ∧ (i a).val < win1_5.index t a * S5000x121.size a + S5000x121.size a := by
  show i ∈ ((View.whole main_v43).slice (win1_5.rect t)).set ↔ _
  rw [View.set_slice_whole, Rect.mem_set_unit]
  exact Iff.rfl

/-- Every entry of the output array is in the block of the point its row falls in. -/
theorem covered (i : S100000x121.Idx) :
    ∃ t : Fin cfg1.N, (cfg1.win 5).flush t = true ∧ i ∈ ((cfg1.win 5).blk t).view.set := by
  have hi0 : (i 0).val < 100000 := (i 0).isLt
  have hi1 : (i 1).val < 121 := (i 1).isLt
  refine ⟨⟨(i 0).val / 5000, by show (i 0).val / 5000 < 20; omega⟩, flush1_5 _, ?_⟩
  rw [mem_block]
  obtain ⟨-, -, -, -, -, -, -, -, -, e50, e51⟩ := index_facts ⟨(i 0).val / 5000, by show (i 0).val / 5000 < 20; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 121 ≤ (i 1).val ∧ (i 1).val < win1_5.index _ (1 : Fin 2) * 121 + 121
    rw [e51]; omega

/-- After region 1 the output array is the dense stage of the arrays the region found. -/
theorem array_eq (c : Dev nD) : (dat1 (F := Ideal) V c).arrAt 5 cfg1.N = output V c :=
  (dat1 (F := Ideal) V c).arrAt_eq_of_cover 5 (output V c) (fun t _ => flushed_eq V c t) covered

end Cert.Sage.Region1

end
-- ==== Proof.RefValue.lean ====
/-
  The dense stages of the reference, read as whole-array functions.

  The reference computes each GraphSAGE layer's dense stage one array operation at a time: two matrix products that
  contract the feature axis against a transposed weight matrix, their sum, the bias broadcast along the rows and
  added, and (first layer only) the maximum with a zero array. Entry (r, o) of the result is therefore

      (Σ_k M[r, k] · Wl[o, k]  +  Σ_k X[r, k] · Wr[o, k])  +  b[o]

  (then max(·, 0) in the first layer), with the two sums added in that order and the bias last: exactly the entry
  `lin` / `linRelu` define. Nothing is rearranged on the extended reals; the only work is to see that the index
  each operation reads (the transpose swaps the two coordinates, a broadcast forgets one, a product's operand index
  is a row coordinate and the summation variable) is the index built from the coordinates of (r, o).
  The neighbour means entering the two stages are kept as opaque arrays throughout.
-/
import proofs.«159561_j40578851013001_1_alg».proof.Proof.Gen.ReferenceIdeal.Read
import proofs.«159561_j40578851013001_1_alg».proof.Proof.Dense
noncomputable section
open scoped BigOperators
namespace Cert.Sage.Ref
open Cert.ReferenceIdeal Cert.ReferenceIdeal.Read Idealize.ShloMosaic Idealize.ShloMosaic.ValueIdx Cert.Sage

/-! ## The indices the first layer's operations read -/

/-- Left operand of the product with the mean: row `r`, summation variable `k`. -/
private theorem l24 (i : S100000x128.Idx) (k : Fin 64) :
    lidx_main_v24 i k = (ix2 (i 0) k : S100000x64.Idx) :=
  funext fun a => by match a with | ⟨0, _⟩ => rfl | ⟨1, _⟩ => rfl

/-- Right operand of the product with the mean, through the transpose: entry (k, o) of the transposed matrix is entry (o, k) of the stored one. -/
private theorem r24 (i : S100000x128.Idx) (k : Fin 64) :
    idx_main_v23 (ridx_main_v24 i k) = (ix2 (i 1) k : S128x64.Idx) :=
  funext fun a => by match a with | ⟨0, _⟩ => rfl | ⟨1, _⟩ => rfl

/-- Left operand of the product with the node features: row `r`, summation variable `k`. -/
private theorem l26 (i : S100000x128.Idx) (k : Fin 64) :
    lidx_main_v26 i k = (ix2 (i 0) k : S100000x64.Idx) :=
  funext fun a => by match a with | ⟨0, _⟩ => rfl | ⟨1, _⟩ => rfl

/-- Right operand of the product with the node features, through the transpose. -/
private theorem r26 (i : S100000x128.Idx) (k : Fin 64) :
    idx_main_v25 (ridx_main_v26 i k) = (ix2 (i 1) k : S128x64.Idx) :=
  funext fun a => by match a with | ⟨0, _⟩ => rfl | ⟨1, _⟩ => rfl

/-- The bias, broadcast first to one row and then along the rows, is read at the column coordinate. -/
private theorem b29 (i : S100000x128.Idx) :
    idx_main_v28 (idx_main_v29 i) = (ix1 (i 1) : S128.Idx) :=
  funext fun a => by match a with | ⟨0, _⟩ => rfl

/-! ## The indices the second layer's operations read -/

/-- Left operand of the product with the second mean: row `r`, summation variable `k`. -/
private theorem l52 (i : S100000x121.Idx) (k : Fin 128) :
    lidx_main_v52 i k = (ix2 (i 0) k : S100000x128.Idx) :=
  funext fun a => by match a with | ⟨0, _⟩ => rfl | ⟨1, _⟩ => rfl

/-- Right operand of the product with the second mean, through the transpose. -/
private theorem r52 (i : S100000x121.Idx) (k : Fin 128) :
    idx_main_v51 (ridx_main_v52 i k) = (ix2 (i 1) k : S121x128.Idx) :=
  funext fun a => by match a with | ⟨0, _⟩ => rfl | ⟨1, _⟩ => rfl

/-- Left operand of the product with the hidden layer: row `r`, summation variable `k`. -/
private theorem l54 (i : S100000x121.Idx) (k : Fin 128) :
    lidx_main_v54 i k = (ix2 (i 0) k : S100000x128.Idx) :=
  funext fun a => by match a with | ⟨0, _⟩ => rfl | ⟨1, _⟩ => rfl

/-- Right operand of the product with the hidden layer, through the transpose. -/
private theorem r54 (i : S100000x121.Idx) (k : Fin 128) :
    idx_main_v53 (ridx_main_v54 i k) = (ix2 (i 1) k : S121x128.Idx) :=
  funext fun a => by match a with | ⟨0, _⟩ => rfl | ⟨1, _⟩ => rfl

/-- The second bias, broadcast to one row and then along the rows, is read at the column coordinate. -/
private theorem b57 (i : S100000x121.Idx) :
    idx_main_v56 (idx_main_v57 i) = (ix1 (i 1) : S121.Idx) :=
  funext fun a => by match a with | ⟨0, _⟩ => rfl

/-! ## The two stages -/

/-- the hidden layer: stage %31 is the rectified dense stage of the first mean (stage %22) and the node features -/
theorem hidden_eq (x0 : (⟨S100000x64, .f32⟩ : BufTy).Contents (Elt Ideal)) (x1 : (⟨S2x640000, .i32⟩ : BufTy).Contents (Elt Ideal))
    (x2 x3 : (⟨S128x64, .f32⟩ : BufTy).Contents (Elt Ideal)) (x4 : (⟨S128, .f32⟩ : BufTy).Contents (Elt Ideal)) :
    val_main_v31 (F := Ideal) x0 x1 x2 x3 x4 = linRelu (val_main_v22 (F := Ideal) x0 x1) x0 x2 x3 x4 := by
  funext i
  rw [val_main_v31_apply, val_main_v30_apply, val_main_v27_apply, val_main_v24_apply, val_main_v26_apply,
    val_main_v29_apply, val_main_v28_apply, val_main_call0_v0_apply, val_main_call0_cst_apply]
  -- entry by entry: max ((Σ_k mean[r,k]·Wl[o,k] + Σ_k X[r,k]·Wr[o,k]) + b[o]) 0 on both sides
  generalize val_main_v22 (F := Ideal) x0 x1 = M
  simp only [val_main_v23_apply, val_main_v25_apply, l24, r24, l26, r26, b29, Ideal.maximumf_def, Ideal.addf_def]
  rfl

/-- the output: stage %58 is the dense stage of the second mean (stage %50) and the hidden layer (stage %31) -/
theorem out_eq (x0 : (⟨S100000x64, .f32⟩ : BufTy).Contents (Elt Ideal)) (x1 : (⟨S2x640000, .i32⟩ : BufTy).Contents (Elt Ideal))
    (x2 x3 : (⟨S128x64, .f32⟩ : BufTy).Contents (Elt Ideal)) (x4 : (⟨S128, .f32⟩ : BufTy).Contents (Elt Ideal))
    (x5 x6 : (⟨S121x128, .f32⟩ : BufTy).Contents (Elt Ideal)) (x7 : (⟨S121, .f32⟩ : BufTy).Contents (Elt Ideal)) :
    val_main_v58 (F := Ideal) x0 x1 x2 x3 x4 x5 x6 x7
      = lin (val_main_v50 (F := Ideal) x0 x1 x2 x3 x4) (val_main_v31 (F := Ideal) x0 x1 x2 x3 x4) x5 x6 x7 := by
  funext i
  rw [val_main_v58_apply, val_main_v55_apply, val_main_v52_apply, val_main_v54_apply,
    val_main_v57_apply, val_main_v56_apply]
  -- entry by entry: (Σ_k mean₂[r,k]·Wl[o,k] + Σ_k H[r,k]·Wr[o,k]) + b[o] on both sides
  generalize val_main_v50 (F := Ideal) x0 x1 x2 x3 x4 = M
  generalize val_main_v31 (F := Ideal) x0 x1 x2 x3 x4 = H
  simp only [val_main_v51_apply, val_main_v53_apply, l52, r52, l54, r54, b57, Ideal.addf_def]
  rfl

end Cert.Sage.Ref
end
-- ==== Proof.KernelValue.lean ====
/-
  The kernel program's result as a function of its arguments, at the ideal instance.

  The program is: host operations (the first neighbour mean: gather the source rows, scatter-add them at the
  destinations, divide by the clamped in-degree), region 0 (the first dense stage, rectified), host operations (the
  second neighbour mean, of the hidden array), region 1 (the second dense stage).  Going through the run's segment
  boundaries in order, each array a region or a host stretch reads is identified with the reference's stage of the
  same name of the SAME arguments:
    * the first mean is the reference's first mean: the host operations are the same operations of the same arguments;
    * so the hidden array, the rectified dense stage of it and of the features (region 0), is the reference's hidden layer;
    * so the second mean, the same host operations applied to the hidden array and the same edge lists, is the
      reference's second mean;
    * so the output array, the dense stage of that and of the hidden array (region 1), is the reference's result.
  The means are never opened: a gather and a scatter-add over 640,000 edges stay opaque functions throughout, and only
  the equality of what goes INTO them is used.
-/
import proofs.«159561_j40578851013001_1_alg».proof.Proof.KernelRun
import proofs.«159561_j40578851013001_1_alg».proof.Proof.Region0
import proofs.«159561_j40578851013001_1_alg».proof.Proof.Region1
import proofs.«159561_j40578851013001_1_alg».proof.Proof.RefValue

set_option maxRecDepth 16384

noncomputable section

namespace Cert.Sage.Kernel

open Cert.KernelIdeal Cert.KernelIdeal.Gen Idealize.ShloMosaic Idealize.ShloMosaic.TcCoe Idealize.SL.Sem Cert.Sage
open Idealize.ShloMosaic.StableHlo

variable (m : (ℓ : Loc nD τ sig) → Buf (Elt Ideal) ℓ) (ρ : Dev nD → PrngReg)

/-! ## At region 0's entry: the arguments as launched, and the first mean -/

theorem arg0_at1 (c : Dev nD) : V1 m ρ c main_arg0 = m ((c : Thread nD τ).loc main_arg0) := by
  show StableHlo.after hostOps0 (W0 m ρ c) (Proc.devRef .tc main_arg0) = _
  after_results_simp
theorem arg2_at1 (c : Dev nD) : V1 m ρ c main_arg2 = m ((c : Thread nD τ).loc main_arg2) := by
  show StableHlo.after hostOps0 (W0 m ρ c) (Proc.devRef .tc main_arg2) = _
  after_results_simp
theorem arg3_at1 (c : Dev nD) : V1 m ρ c main_arg3 = m ((c : Thread nD τ).loc main_arg3) := by
  show StableHlo.after hostOps0 (W0 m ρ c) (Proc.devRef .tc main_arg3) = _
  after_results_simp
theorem arg4_at1 (c : Dev nD) : V1 m ρ c main_arg4 = m ((c : Thread nD τ).loc main_arg4) := by
  show StableHlo.after hostOps0 (W0 m ρ c) (Proc.devRef .tc main_arg4) = _
  after_results_simp

/-- The first neighbour mean is the reference's: the same host operations of the same two arguments. -/
theorem mean1_eq (c : Dev nD) :
    V1 m ρ c main_v22 = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  rfl

/-! ## At region 0's exit: the hidden array, and the edge lists still in place -/

/-- The hidden array is the reference's hidden layer. -/
theorem hidden_eq (c : Dev nD) :
    W2 m ρ c (Proc.devRef .tc main_v23) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [Region0.array_eq (V1 m ρ) c]
  show linRelu (V1 m ρ c main_v22) (V1 m ρ c main_arg0) (V1 m ρ c main_arg2) (V1 m ρ c main_arg3) (V1 m ρ c main_arg4) = _
  rw [mean1_eq m ρ c, arg0_at1 m ρ c, arg2_at1 m ρ c, arg3_at1 m ρ c, arg4_at1 m ρ c]
  exact (Ref.hidden_eq _ _ _ _ _).symm

/-- The source list, computed before region 0 and untouched by it. -/
theorem src_eq (c : Dev nD) :
    W2 m ρ c (Proc.devRef .tc main_v1) = Cert.ReferenceIdeal.Read.val_main_v1 (F := Ideal) (m ((c : Thread nD τ).loc main_arg1)) := by
  refine (W2_of_ne m ρ c main_v1 (by decide)).trans ?_
  show StableHlo.after hostOps0 (W0 m ρ c) (Proc.devRef .tc main_v1) = _
  after_results_simp
  rfl

/-- The destination list, computed before region 0 and untouched by it. -/
theorem dst_eq (c : Dev nD) :
    W2 m ρ c (Proc.devRef .tc main_v3) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results_simp
  rfl

theorem arg5_at2 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp
theorem arg6_at2 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp
theorem arg7_at2 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp

/-! ## At region 1's entry: the second mean, the hidden array, the second layer's parameters -/

/-- The second neighbour mean is the reference's: the same host operations of the hidden array and the edge lists. -/
theorem mean2_eq (c : Dev nD) :
    V3 m ρ c main_v42 = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v42) = _
  after_results_simp
  rw [hidden_eq m ρ c, src_eq m ρ c, dst_eq m ρ c]
  rfl

theorem hidden_at3 (c : Dev nD) :
    V3 m ρ c main_v23 = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v23) = _
  after_results_simp
  exact hidden_eq m ρ c

theorem arg5_at3 (c : Dev nD) : V3 m ρ c main_arg5 = m ((c : Thread nD τ).loc main_arg5) := by
  show StableHlo.after hostOps1 (W2 m ρ c) (Proc.devRef .tc main_arg5) = _
  after_results_simp
  exact arg5_at2 m ρ c
theorem arg6_at3 (c : Dev nD) : V3 m ρ c main_arg6 = m ((c : Thread nD τ).loc main_arg6) := by
  show StableHlo.after hostOps1 (W2 m ρ c) (Proc.devRef .tc main_arg6) = _
  after_results_simp
  exact arg6_at2 m ρ c
theorem arg7_at3 (c : Dev nD) : V3 m ρ c main_arg7 = m ((c : Thread nD τ).loc main_arg7) := by
  show StableHlo.after hostOps1 (W2 m ρ c) (Proc.devRef .tc main_arg7) = _
  after_results_simp
  exact arg7_at2 m ρ c

/-! ## At the end: the output array -/

/-- The output array is the reference's result, as a function of the eight arguments. -/
theorem result_eq (c : Dev nD) :
    W4 m ρ c (Proc.devRef .tc main_v43) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Region1.array_eq (V3 m ρ) c]
  show lin (V3 m ρ c main_v42) (V3 m ρ c main_v23) (V3 m ρ c main_arg5) (V3 m ρ c main_arg6) (V3 m ρ c main_arg7) = _
  rw [mean2_eq m ρ c, hidden_at3 m ρ c, arg5_at3 m ρ c, arg6_at3 m ρ c, arg7_at3 m ρ c]
  exact (Ref.out_eq _ _ _ _ _ _ _ _).symm

/-- Every weakly fair execution of the kernel program terminates without a fault, with the result buffer at the
    reference's result function of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v43) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Named.run_named m ρ)

end Cert.Sage.Kernel

end
-- ==== Proof.lean ====
/-
  Two-layer GraphSAGE (mean aggregation, a rectifier between the layers) as a row-tiled kernel program against its
  array-at-a-time reference, over the extended reals.

  Both programs compute, with M₁ = mean-aggregate(x), H = max(dense₁(M₁, x), 0), M₂ = mean-aggregate(H):

      out = dense₂(M₂, H),   dense(M, X)[r, o] = (Σ_k M[r,k]·Wl[o,k] + Σ_k X[r,k]·Wr[o,k]) + b[o].

  The two neighbour means are the SAME host operations in both programs (gather the source rows, scatter-add them at
  the destination rows, divide by the in-degree clamped below by one), so they are carried as opaque functions and only
  the equality of their operands is used.  The dense stages differ in how they are computed: the kernel program runs
  each on 20 blocks of 5000 rows, with the operands changed to a narrower float format before a matrix-unit product
  into a zero accumulator; the reference runs one whole-array product.  On the extended reals a change of float format
  is the identity and both products are the plain finite sum, added in the same order on both sides, and a row block of
  the stage is the stage of the row blocks; the 20 blocks tile each result array.  No law of the extended reals beyond
  this unfolding is needed, and the finiteness of the inputs is not used.

  The three frames: the two kernel programs' are the generated frame certificates; the reference's is its generated run
  with the result forgotten.  The idealization rewrote no operation, so there is nothing to preserve.
-/
import proofs.«159561_j40578851013001_1_alg».proof.Defs
import proofs.«159561_j40578851013001_1_alg».proof.Proof.Gen.Kernel
import proofs.«159561_j40578851013001_1_alg».proof.Proof.Gen.Kernel.Frame
import proofs.«159561_j40578851013001_1_alg».proof.Proof.Gen.KernelIdeal
import proofs.«159561_j40578851013001_1_alg».proof.Proof.Gen.KernelIdeal.Frame
import proofs.«159561_j40578851013001_1_alg».proof.Proof.Gen.ReferenceIdeal
import proofs.«159561_j40578851013001_1_alg».proof.Proof.Gen.ReferenceIdeal.Run
import proofs.«159561_j40578851013001_1_alg».proof.Proof.Gen.ReferenceIdeal.Read
import proofs.«159561_j40578851013001_1_alg».proof.Proof.Gen.Pre_finite_inputs
import proofs.«159561_j40578851013001_1_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the eight arguments both programs end with the result array at ONE function of the
    arguments: the reference's last stage.  The kernel program's run ends there by the chain of identifications of
    its arrays with the reference's stages; the reference's run ends at its own term, which is that stage. -/
theorem algebraic : Cert.algebraic_KernelIdeal_ReferenceIdeal := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
